-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) (main_arg2 : FVec F S262144x128 .f32) (main_arg3 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  main_v13
-- ==== Kernel.lean ====
abbrev S262144x128 : Shape := ⟨2, ![262144, 128]⟩
abbrev S262144 : Shape := ⟨1, ![262144]⟩
abbrev S4 : Shape := ⟨1, ![4]⟩
abbrev S_ : Shape := ⟨0, ![]⟩
abbrev S262144x1 : Shape := ⟨2, ![262144, 1]⟩
abbrev S1x1 : Shape := ⟨2, ![1, 1]⟩
abbrev S4096x128 : Shape := ⟨2, ![4096, 128]⟩
abbrev S4096x1 : Shape := ⟨2, ![4096, 1]⟩
abbrev S4096 : Shape := ⟨1, ![4096]⟩
abbrev S1 : Shape := ⟨1, ![1]⟩

abbrev nBuf : Space → Nat
  | .hbm => 17
  | .vmem => 9
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S4, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144, .f32⟩
  | .hbm, ⟨14, _⟩ => ⟨S262144x1, .f32⟩
  | .hbm, ⟨15, _⟩ => ⟨S1x1, .f32⟩
  | .hbm, ⟨16, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x1, .f32⟩
  | .local _ .vmem, ⟨7, _⟩ => ⟨S4096x1, .f32⟩
  | .local _ .vmem, ⟨8, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144_S262144x1 : S262144.ShapeCasts S262144x1
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x128_S4096 : S4096x128.Reduces [1] S4096
  shapeCasts_S4096_S4096x1 : S4096.ShapeCasts S4096x1
  shapeCasts_S1x1_S1x1 : S1x1.ShapeCasts S1x1
  reduces_S4096x1_S1 : S4096x1.Reduces [0] S1
  shapeCasts_S1_S1x1 : S1.ShapeCasts S1x1
  shapeCasts_S1x1_S_ : S1x1.ShapeCasts S_
  gather_S4_S262144x1_S262144_n_0_n_n_0_1_1_wf : GatherDims.WF S4 S262144x1 S262144 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .f32 = 32 ∨ (Rect.block (s := S262144x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S4_S262144x1_S262144_n_0_n_n_0_1_1 : GatherDims S4 S262144x1 S262144 where
  offsetDims := []
  collapsedSliceDims := [0]
  operandBatchingDims := []
  startIndicesBatchingDims := []
  startIndexMap := [0]
  indexVectorDim := 1
  sliceSizes := ![1]
  wf := gather_S4_S262144x1_S262144_n_0_n_n_0_1_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S4 : Shape := ⟨1, ![4]⟩
abbrev S_ : Shape := ⟨0, ![]⟩
abbrev S262144x1 : Shape := ⟨2, ![262144, 1]⟩

abbrev nBuf : Space → Nat
  | .hbm => 39
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S4, .f32⟩
  | .hbm, ⟨5, _⟩ => ⟨S262144x128, .f32⟩
  | .hbm, ⟨6, _⟩ => ⟨S_, .f32⟩
  | .hbm, ⟨7, _⟩ => ⟨S262144x128, .f32⟩
  | .hbm, ⟨8, _⟩ => ⟨S262144x128, .f32⟩
  | .hbm, ⟨9, _⟩ => ⟨S262144x128, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S262144x128, .f32⟩
  | .hbm, ⟨14, _⟩ => ⟨S_, .f32⟩
  | .hbm, ⟨15, _⟩ => ⟨S262144x128, .f32⟩
  | .hbm, ⟨16, _⟩ => ⟨S262144x128, .f32⟩
  | .hbm, ⟨17, _⟩ => ⟨S262144x128, .f32⟩
  | .hbm, ⟨18, _⟩ => ⟨S_, .f32⟩
  | .hbm, ⟨19, _⟩ => ⟨S262144, .f32⟩
  | .hbm, ⟨20, _⟩ => ⟨S262144, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S_, .f32⟩
  | .hbm, ⟨33, _⟩ => ⟨S262144, .f32⟩
  | .hbm, ⟨34, _⟩ => ⟨S262144, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144_S_d0 : S262144.ReducesTo [0] S_
  gather_S4_S262144x1_S262144_n_0_n_n_0_1_1_wf : GatherDims.WF S4 S262144x1 S262144 [] [0] [] [0] [] 1 ![1]

variable [Facts₀]

def gather_S4_S262144x1_S262144_n_0_n_n_0_1_1 : GatherDims S4 S262144x1 S262144 where
  offsetDims := []
  collapsedSliceDims := [0]
  operandBatchingDims := []
  startIndicesBatchingDims := []
  startIndexMap := [0]
  indexVectorDim := 1
  sliceSizes := ![1]
  wf := gather_S4_S262144x1_S262144_n_0_n_n_0_1_1_wf

class Facts : Prop extends Facts₀ where

variable [Facts]
-- ==== Proof.KernelCases.lean ====
/-
  What each of the kernel body's three cases leaves in the accumulator's one-element buffer, as a value of the blocks it
  was called with — read off the pieces the generated per-case runs found (every load and every store goes through the
  whole buffer, so a load reads the contents and a covering store leaves its payload):

    the first grid point     stores the zero, reads it back, and leaves  `zero + (this block's sum)`;
    a middle grid point      leaves  `(what the point before left) + (this block's sum)`;
    the last grid point      does the same, reads that back, and leaves it scaled by the constant `2⁻¹⁸`.

  `k0_pay3 a p n mg acc` is the generated name of "`acc` plus the block's sum of losses", `k0_pay2` of the zero splat,
  `k0_pay1` of the scaling. All three hold at every float instance.
-/
import proofs.«139959_j55972013802306_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A middle point: the accumulator `acc` becomes `acc` plus the block's sum. -/
theorem out_middle (c : Dev nD) (i : grid0.Coords) (a1 : Memref sig .tc .vmem S4096x128 .f32) (h1 : a1.IsWhole) (a2 : Memref sig .tc .vmem S4096x128 .f32) (h2 : a2.IsWhole)
    (a3 : Memref sig .tc .vmem S4096x128 .f32) (h3 : a3.IsWhole) (a4 : Memref sig .tc .vmem S4096x1 .f32) (h4 : a4.IsWhole) (a5 : Memref sig .tc .vmem S1x1 .f32) (h5 : a5.IsWhole)
    (hc0 : ¬cond0_0 i) (hc1 : ¬cond0_1 i) (x0 x1 x2 : Vec F S4096x128 .f32) (x3 : Vec F S4096x1 .f32) (acc : Vec F S1x1 .f32) :
    out0_B_4 c i a1 h1 a2 h2 a3 h3 a4 h4 a5 h5 hc0 hc1 x0 x1 x2 x3 acc = k0_pay3 x0 x1 x2 x3 acc := by
  unfold out0_B_4
  rw [View.read_writes_eq_canon _ _ _ (cover0_B_4 c i a1 h1 a2 h2 a3 h3 a4 h4 a5 h5 hc0 hc1 x0 x1 x2 x3 acc)]
  unfold kernelRun0_B
  dsimp only
  sl_unfold_words
  rw [View.canon_unit_zero (S := S1x1) hz]
  simp only [View.readAt_eq_ld, h1.read_unread, h2.read_unread, h3.read_unread, h4.read_unread, h5.read_unread,
    View.ld_unit_zero (S := S4096x128) hz, View.ld_unit_zero (S := S4096x1) hz, View.ld_unit_zero (S := S1x1) hz]

/-- The first point: the accumulator is reset to the zero splat, then the block's sum is added. -/
theorem out_first (c : Dev nD) (i : grid0.Coords) (a1 : Memref sig .tc .vmem S4096x128 .f32) (h1 : a1.IsWhole) (a2 : Memref sig .tc .vmem S4096x128 .f32) (h2 : a2.IsWhole)
    (a3 : Memref sig .tc .vmem S4096x128 .f32) (h3 : a3.IsWhole) (a4 : Memref sig .tc .vmem S4096x1 .f32) (h4 : a4.IsWhole) (a5 : Memref sig .tc .vmem S1x1 .f32) (h5 : a5.IsWhole)
    (hc0 : cond0_0 i) (hc1 : ¬cond0_1 i) (x0 x1 x2 : Vec F S4096x128 .f32) (x3 : Vec F S4096x1 .f32) :
    out0_A_4 c i a1 h1 a2 h2 a3 h3 a4 h4 a5 h5 hc0 hc1 x0 x1 x2 x3 = k0_pay3 x0 x1 x2 x3 k0_pay2 := by
  unfold out0_A_4
  rw [View.read_writes_eq_canon _ _ _ (cover0_A_4 c i a1 h1 a2 h2 a3 h3 a4 h4 a5 h5 hc0 hc1 x0 x1 x2 x3)]
  unfold kernelRun0_A
  dsimp only
  sl_unfold_words
  rw [View.canon_cons_unit_zero (S := S1x1) hz]
  simp only [View.readAt_eq_ld, h1.read_unread, h2.read_unread, h3.read_unread, h4.read_unread,
    View.ld_unit_zero (S := S4096x128) hz, View.ld_unit_zero (S := S4096x1) hz, View.readCov_unit_zero (S := S1x1) _ hz]

/-- The last point: the block's sum is added, and the total is scaled. -/
theorem out_last (c : Dev nD) (i : grid0.Coords) (a1 : Memref sig .tc .vmem S4096x128 .f32) (h1 : a1.IsWhole) (a2 : Memref sig .tc .vmem S4096x128 .f32) (h2 : a2.IsWhole)
    (a3 : Memref sig .tc .vmem S4096x128 .f32) (h3 : a3.IsWhole) (a4 : Memref sig .tc .vmem S4096x1 .f32) (h4 : a4.IsWhole) (a5 : Memref sig .tc .vmem S1x1 .f32) (h5 : a5.IsWhole)
    (hc0 : ¬cond0_0 i) (hc1 : cond0_1 i) (x0 x1 x2 : Vec F S4096x128 .f32) (x3 : Vec F S4096x1 .f32) (acc : Vec F S1x1 .f32) :
    out0_C_4 c i a1 h1 a2 h2 a3 h3 a4 h4 a5 h5 hc0 hc1 x0 x1 x2 x3 acc = k0_pay1 (k0_pay3 x0 x1 x2 x3 acc) := by
  unfold out0_C_4
  rw [View.read_writes_eq_canon _ _ _ (cover0_C_4 c i a1 h1 a2 h2 a3 h3 a4 h4 a5 h5 hc0 hc1 x0 x1 x2 x3 acc)]
  unfold kernelRun0_C
  dsimp only
  sl_unfold_words
  rw [View.canon_cons_unit_zero (S := S1x1) hz]
  simp only [View.readAt_eq_ld, h1.read_unread, h2.read_unread, h3.read_unread, h4.read_unread, h5.read_unread,
    View.ld_unit_zero (S := S4096x128) hz, View.ld_unit_zero (S := S4096x1) hz, View.ld_unit_zero (S := S1x1) hz,
    View.readCov_unit_zero (S := S1x1) _ hz]

end Cert.KernelIdeal.Acc

end
-- ==== Proof.TripletLoss.lean ====
/-
  The mathematics both programs compute, with no program in sight.

  A sample is three rows of 128 numbers (an anchor, a positive, a negative) and a margin. Its loss is the positive part of
  `d(a, p) − d(a, n) + margin`, where `d(x, y) = √ Σₖ (xₖ − yₖ + ε)²`. The result is the mean of the 262144 losses.
  One program adds the losses 4096 at a time into a running total and scales the total by `2⁻¹⁸` at the end; the other
  adds them all at once and divides by `262144`. On the extended reals addition is commutative and associative with no
  side condition, so the running total after `n` whole blocks IS the sum of the first `4096 · n` losses
  (`partialSum_block`), and a product with `1 / 262144` is the quotient by `262144` at every extended real
  (`scaled_eq_mean`): no finiteness is used anywhere.
-/
import Idealize.ShloMosaic.PureOps.Ideal
import Idealize.ShloMosaic.PureOps.Ideal.Laws
import Mathlib.Algebra.BigOperators.Group.Finset.Basic
import Mathlib.Data.Fintype.BigOperators

noncomputable section

namespace Cert.TripletLoss

open Idealize.ShloMosaic

/-- The distance of two rows of length 128 with `ε` added to every difference: `√ Σₖ (xₖ − yₖ + ε)²`. -/
def pairDist (ε : EReal) (x y : Fin 128 → EReal) : EReal :=
  Ideal.sqrt (∑ k : Fin 128, (x k - y k + ε) * (x k - y k + ε))

/-- One sample's loss: the positive part of `d(a, p) − d(a, n) + margin`. -/
def rowLoss (ε : EReal) (a p n : Fin 128 → EReal) (mg : EReal) : EReal :=
  max (pairDist ε a p - pairDist ε a n + mg) 0

/-- A natural number as a row, reduced into range (the identity below 262144): it lets the losses be indexed by `ℕ`,
    where sums over initial segments split by plain arithmetic. -/
abbrev rowOf (r : ℕ) : Fin 262144 := ⟨r % 262144, Nat.mod_lt _ (by norm_num)⟩

theorem rowOf_val (r : Fin 262144) : rowOf r.val = r := Fin.ext (Nat.mod_eq_of_lt r.isLt)

theorem rowOf_of_lt {r : ℕ} (h : r < 262144) : rowOf r = ⟨r, h⟩ := Fin.ext (Nat.mod_eq_of_lt h)

/-- The loss of row `r` of the four arrays (rows of anchors, positives, negatives; a margin per row). -/
def lossAt (ε : EReal) (A P N : Fin 262144 → Fin 128 → EReal) (M : Fin 262144 → EReal) (r : ℕ) : EReal :=
  rowLoss ε (A (rowOf r)) (P (rowOf r)) (N (rowOf r)) (M (rowOf r))

/-- The sum of the first `n` terms. -/
def partialSum (f : ℕ → EReal) (n : ℕ) : EReal := ∑ r ∈ Finset.range n, f r

theorem partialSum_zero (f : ℕ → EReal) : partialSum f 0 = 0 := Finset.sum_range_zero f

/-- Adding one block of 4096 terms to the sum of the first `n` gives the sum of the first `n + 4096`. -/
theorem partialSum_block (f : ℕ → EReal) (n : ℕ) :
    partialSum f n + ∑ q : Fin 4096, f (n + q.val) = partialSum f (n + 4096) := by
  unfold partialSum
  rw [Finset.sum_range_add, Fin.sum_univ_eq_sum_range (fun q => f (n + q)) 4096]

/-- The sum of the first 262144 terms is the sum over all rows. -/
theorem partialSum_all (f : ℕ → EReal) : partialSum f 262144 = ∑ r : Fin 262144, f r.val :=
  (Fin.sum_univ_eq_sum_range f 262144).symm

/-- The pattern `0x48800000` denotes the real `262144 = 2¹⁸`. -/
theorem ofBits_262144 : Ideal.ofBits .f32 0x48800000#32 = ((262144 : ℝ) : EReal) := by
  simp [Ideal.ofBits, Ideal.ieee, -EReal.coe_mul]; norm_num

/-- The pattern `0x36800000` denotes the real `1 / 262144 = 2⁻¹⁸`, exactly. -/
theorem ofBits_inv_262144 : Ideal.ofBits .f32 0x36800000#32 = ((1 / 262144 : ℝ) : EReal) := by
  simp [Ideal.ofBits, Ideal.ieee, -EReal.coe_mul]; norm_num

/-- Scaling by `2⁻¹⁸` is dividing by `2¹⁸`, at every extended real. -/
theorem scaled_eq_mean (x : EReal) :
    x * Ideal.ofBits .f32 0x36800000#32 = Ideal.div x (Ideal.ofBits .f32 0x48800000#32) := by
  rw [ofBits_262144, ofBits_inv_262144, Ideal.div_coe (by norm_num : (262144 : ℝ) ≠ 0)]

end Cert.TripletLoss

end
-- ==== Proof.KernelBlockSum.lean ====
/-
  The kernel body's arithmetic on one block, read at the extended reals.

  The body's accumulating payload (the generated `k0_pay3`) is, as a term, three stages: the rows' distances of a
  [4096, 128] block pair (`blockDist`: subtract, add the splat `ε`, square, sum along the lanes, reshape the 4096 sums
  into a column, square root), the rows' losses (`blockLoss`: the positive part of the difference of two distances plus the
  block's margin column), and the column's total (`blockTotal`: sum along the rows, reshape to [1, 1]); the payload adds
  that total to the accumulator (`pay3_eq`, by unfolding alone). Read at an index over the extended reals each stage is
  the textbook expression: a lane sum is `Σₖ` over the 128 lanes, the column sum `Σ_q` over the 4096 rows, a reshape
  reads the entry at the same row-major position, a reshape to the same shape reads the same entry. So the payload at its
  one index is the accumulator plus the sum over the block's rows of `TripletLoss.rowLoss` (`pay3_apply`).
-/
import proofs.«139959_j55972013802306_1_alg».proof.Proof.Gen.KernelIdeal.Skeleton
import proofs.«139959_j55972013802306_1_alg».proof.Proof.TripletLoss
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.BlockSum

open Cert.KernelIdeal Cert.KernelIdeal.Gen Cert.TripletLoss

/-- The `ε` both programs add to every difference: the pattern `0x358637BD` (the float nearest `10⁻⁶`), as it reads. -/
abbrev eps : EReal := Ideal.ofBits .f32 0x358637BD#32

/-- The one index of a [1, 1] block. -/
abbrev o11 : S1x1.Idx := ix2 (0 : Fin 1) (0 : Fin 1)

section Stages

variable {F : FTy → Type} [FloatOps F]

/-- The rows' distances of a block pair, as a [4096, 1] column. -/
def blockDist (x y : Vec F S4096x128 .f32) : FVec F S4096x1 .f32 :=
  sqrt (shapeCast S4096x1 (multiReduction .add [1] S4096
      (mulf (addf (subf x y) (broadcast S4096x128 (Scalar.ofBits .f32 0x358637BD#32)))
        (addf (subf x y) (broadcast S4096x128 (Scalar.ofBits .f32 0x358637BD#32))))
      0x00000000#32 reduces_S4096x128_S4096 (.inl rfl) rfl) shapeCasts_S4096_S4096x1)

/-- The rows' losses of a block: the positive part of `d(a, p) − d(a, n) + margin`. -/
def blockLoss (x0 x1 x2 : Vec F S4096x128 .f32) (x3 : Vec F S4096x1 .f32) : FVec F S4096x1 .f32 :=
  maximumf (addf (subf (blockDist x0 x1) (blockDist x0 x2)) (shapeCast S4096x1 x3 shapeCasts_S4096x1_S4096x1))
    (broadcast S4096x1 (Scalar.ofBits .f32 0x00000000#32))

/-- A column's total, as a [1, 1] block. -/
def blockTotal (v : FVec F S4096x1 .f32) : FVec F S1x1 .f32 :=
  shapeCast S1x1 (multiReduction .add [0] S1 v 0x00000000#32 reduces_S4096x1_S1 (.inl rfl) rfl) shapeCasts_S1_S1x1

/-- The accumulating payload is the accumulator plus the total of the block's losses. -/
theorem pay3_eq (x0 x1 x2 : Vec F S4096x128 .f32) (x3 : Vec F S4096x1 .f32) (acc : Vec F S1x1 .f32) :
    k0_pay3 x0 x1 x2 x3 acc = addf (shapeCast S1x1 acc shapeCasts_S1x1_S1x1) (blockTotal (blockLoss x0 x1 x2 x3)) := rfl

end Stages

/-- A sum along the 128 lanes of a [4096, 128] block, at row `q`: `Σₖ` of the row's entries. -/
theorem laneSum_apply (v : FVec Ideal S4096x128 .f32) (h : S4096x128.Reduces [1] S4096) (hφ : FKind.Formats .f32)
    (hacc : (0x00000000#32 : BitVec 32) = FKind.add.neutral .f32 hφ) (q : Fin 4096) :
    multiReduction .add [1] S4096 v 0x00000000#32 h hφ hacc (ix1 q) = ∑ k : Fin 128, v (ix2 q k) :=
  (Ideal.multiReduction_add_single v _ h hφ hacc (ix1 q)).trans
    (Finset.sum_congr rfl fun k _ => congrArg v (funext fun a => Fin.ext (by match a with | ⟨0, _⟩ => rfl | ⟨1, _⟩ => rfl)))

/-- A sum along the 4096 rows of a [4096, 1] column: `Σ_q` of its entries. -/
theorem rowSum_apply (v : FVec Ideal S4096x1 .f32) (h : S4096x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ q : Fin 4096, v (ix2 q 0) :=
  (Ideal.multiReduction_add_single v _ h hφ hacc (ix1 (0 : Fin 1))).trans
    (Finset.sum_congr rfl fun q _ => congrArg v (funext fun a => Fin.ext (by match a with | ⟨0, _⟩ => rfl | ⟨1, _⟩ => rfl)))

/-- A block pair's distance at row `q` is the distance of the two rows. -/
theorem blockDist_apply (x y : FVec Ideal S4096x128 .f32) (q : Fin 4096) :
    blockDist (F := Ideal) x y (ix2 q 0) = pairDist eps (fun k => x (ix2 q k)) (fun k => y (ix2 q k)) := by
  unfold blockDist pairDist
  show Ideal.sqrt (shapeCast S4096x1 _ shapeCasts_S4096_S4096x1 (ix2 q 0)) = Ideal.sqrt _
  refine congrArg Ideal.sqrt ?_
  refine (shapeCast_apply _ shapeCasts_S4096_S4096x1 (ix2 q 0) (ix1 q) ?_).trans ?_
  · rw [Shape.rowMajor_val_one, Shape.rowMajor_val_two]
    show q.val = q.val * 1 + 0
    omega
  · exact laneSum_apply _ _ _ _ q

/-- A block's loss at row `q` is the row's loss. -/
theorem blockLoss_apply (x0 x1 x2 : FVec Ideal S4096x128 .f32) (x3 : FVec Ideal S4096x1 .f32) (q : Fin 4096) :
    blockLoss (F := Ideal) x0 x1 x2 x3 (ix2 q 0)
      = rowLoss eps (fun k => x0 (ix2 q k)) (fun k => x1 (ix2 q k)) (fun k => x2 (ix2 q k)) (x3 (ix2 q 0)) := by
  unfold blockLoss rowLoss
  show max ((blockDist x0 x1 (ix2 q 0) - blockDist x0 x2 (ix2 q 0)) + shapeCast S4096x1 x3 shapeCasts_S4096x1_S4096x1 (ix2 q 0))
      (Ideal.ofBits .f32 0x00000000#32) = _
  rw [blockDist_apply, blockDist_apply, shapeCast_self, Ideal.ofBits_zero_f32]

/-- A column's total at its one index is the sum of the column. -/
theorem blockTotal_apply (v : FVec Ideal S4096x1 .f32) : blockTotal (F := Ideal) v o11 = ∑ q : Fin 4096, v (ix2 q 0) := by
  unfold blockTotal
  refine (shapeCast_apply _ shapeCasts_S1_S1x1 o11 (ix1 (0 : Fin 1)) ?_).trans ?_
  · rw [Shape.rowMajor_val_one, Shape.rowMajor_val_two]
    rfl
  · exact rowSum_apply _ _ _ _

/-- THE BLOCK STEP: the accumulating payload at its one index is the accumulator plus the block's rows' losses. -/
theorem pay3_apply (x0 x1 x2 : FVec Ideal S4096x128 .f32) (x3 : FVec Ideal S4096x1 .f32) (acc : FVec Ideal S1x1 .f32) :
    k0_pay3 (F := Ideal) x0 x1 x2 x3 acc o11
      = acc o11 + ∑ q : Fin 4096, rowLoss eps (fun k => x0 (ix2 q k)) (fun k => x1 (ix2 q k)) (fun k => x2 (ix2 q k)) (x3 (ix2 q 0)) := by
  rw [pay3_eq]
  show shapeCast S1x1 acc shapeCasts_S1x1_S1x1 o11 + blockTotal (blockLoss x0 x1 x2 x3) o11 = _
  rw [shapeCast_self, blockTotal_apply]
  exact congrArg (acc o11 + ·) (Finset.sum_congr rfl fun q _ => blockLoss_apply x0 x1 x2 x3 q)

/-- The reset payload is zero. -/
theorem pay2_apply : k0_pay2 (F := Ideal) o11 = 0 := Ideal.ofBits_zero_f32

/-- The closing payload scales by the constant `0x36800000`. -/
theorem pay1_apply (v : FVec Ideal S1x1 .f32) : k0_pay1 (F := Ideal) v o11 = v o11 * Ideal.ofBits .f32 0x36800000#32 := by
  unfold k0_pay1
  show shapeCast S1x1 v shapeCasts_S1x1_S1x1 o11 * Ideal.ofBits .f32 0x36800000#32 = _
  rw [shapeCast_self]

end Cert.KernelIdeal.BlockSum

end
-- ==== Proof.KernelBlocks.lean ====
/-
  What the kernel's input windows read. The grid has 64 points; at point `t` each of the four input windows holds block
  `(t, 0)` of its array (decided once over the grid), so its entry `(q, k)` is the array's entry `(4096·t + q, k)`: the three
  [4096, 128] windows read rows of the three argument arrays, and the [4096, 1] window reads rows of the margin column —
  the array the host operations before the region leave: the margin table gathered at the class indices (a negative index
  first moved up by the table's length) and reshaped from [262144] to [262144, 1].
-/
import proofs.«139959_j55972013802306_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Row `q` of block `t` is row `4096·t + q` of the array. -/
abbrev rowAt (t : Fin cfg0.N) (q : Fin 4096) : Fin 262144 :=
  ⟨4096 * t.val + q.val, by have hN : t.val < 64 := lt_of_lt_of_eq t.isLt N_0; have := q.isLt; omega⟩

/-- Every input window's block index at point `t` is `(t, 0)`. -/
theorem index_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0))

/-- The anchors' window at point `t` reads rows of the first argument. -/
theorem anchors_apply (c : Dev nD) (t : Fin cfg0.N) (q : Fin 4096) (k : Fin 128) :
    (iblk m c 0 t : Vec F S4096x128 .f32) (ix2 q k) = V m c main_arg0 (ix2 (rowAt t q) k) := by
  unfold iblk
  rw [View.read_apply]
  show V m c main_arg0 _ = V m c main_arg0 _
  refine congrArg (V m c main_arg0) (funext fun a => Fin.ext ?_)
  match a with
  | ⟨0, _⟩ => show win0_0.index t 0 * 4096 + 1 * q.val = 4096 * t.val + q.val; rw [(index_in t).1.1]; omega
  | ⟨1, _⟩ => show win0_0.index t 1 * 128 + 1 * k.val = k.val; rw [(index_in t).1.2]; omega

/-- The positives' window reads rows of the second argument. -/
theorem positives_apply (c : Dev nD) (t : Fin cfg0.N) (q : Fin 4096) (k : Fin 128) :
    (iblk m c 1 t : Vec F S4096x128 .f32) (ix2 q k) = V m c main_arg1 (ix2 (rowAt t q) k) := by
  unfold iblk
  rw [View.read_apply]
  show V m c main_arg1 _ = V m c main_arg1 _
  refine congrArg (V m c main_arg1) (funext fun a => Fin.ext ?_)
  match a with
  | ⟨0, _⟩ => show win0_1.index t 0 * 4096 + 1 * q.val = 4096 * t.val + q.val; rw [(index_in t).2.1.1]; omega
  | ⟨1, _⟩ => show win0_1.index t 1 * 128 + 1 * k.val = k.val; rw [(index_in t).2.1.2]; omega

/-- The negatives' window reads rows of the third argument. -/
theorem negatives_apply (c : Dev nD) (t : Fin cfg0.N) (q : Fin 4096) (k : Fin 128) :
    (iblk m c 2 t : Vec F S4096x128 .f32) (ix2 q k) = V m c main_arg2 (ix2 (rowAt t q) k) := by
  unfold iblk
  rw [View.read_apply]
  show V m c main_arg2 _ = V m c main_arg2 _
  refine congrArg (V m c main_arg2) (funext fun a => Fin.ext ?_)
  match a with
  | ⟨0, _⟩ => show win0_2.index t 0 * 4096 + 1 * q.val = 4096 * t.val + q.val; rw [(index_in t).2.2.1.1]; omega
  | ⟨1, _⟩ => show win0_2.index t 1 * 128 + 1 * k.val = k.val; rw [(index_in t).2.2.1.2]; omega

/-- The margins' window reads rows of the margin column. -/
theorem marginBlock_apply (c : Dev nD) (t : Fin cfg0.N) (q : Fin 4096) :
    (iblk m c 3 t : Vec F S4096x1 .f32) (ix2 q 0) = V m c main_v7 (ix2 (rowAt t q) 0) := by
  unfold iblk
  rw [View.read_apply]
  show V m c main_v7 _ = V m c main_v7 _
  refine congrArg (V m c main_v7) (funext fun a => Fin.ext ?_)
  match a with
  | ⟨0, _⟩ => show win0_3.index t 0 * 4096 + 1 * q.val = 4096 * t.val + q.val; rw [(index_in t).2.2.2.1]; omega
  | ⟨1, _⟩ => show win0_3.index t 1 * 1 + 1 * 0 = 0; rw [(index_in t).2.2.2.2]

/-- The margin table gathered at the class indices (a negative index moved up by 4 first), as this program spells it. -/
abbrev margins (cs : (⟨S262144, .i32⟩ : BufTy).Contents (Elt F)) : (⟨S262144, .f32⟩ : BufTy).Contents (Elt F) :=
  Host.gather gather_S4_S262144x1_S262144_n_0_n_n_0_1_1 (fun i => FloatOps.ofBits .f32 (lit0 (S4.rowMajor i)))
    (broadcastInDim S262144x1 ![0] bcast_S262144_S262144x1_0
      (select (cmpi .slt cs (broadcastInDim S262144 ![] bcast_S_S262144 (constantI S_ 32 0#32)))
        (addi cs (broadcastInDim S262144 ![] bcast_S_S262144 (constantI S_ 32 4#32))) cs))

/-- The margin column the region finds: the gathered margins, reshaped to a column. -/
theorem marginColumn_eq (c : Dev nD) :
    (V m c main_v7 : S262144x1.Idx → Elt F .f32)
      = shapeCast S262144x1 (margins (m ((c : Thread nD τ).loc main_arg3))) shapeCasts_S262144_S262144x1 := by
  show StableHlo.after hostOps0 (fun b => m (c, b)) (Proc.devRef .tc main_v7) = _
  after_results
  rfl

/-- So its entry at row `r` is the margin gathered for row `r`. -/
theorem marginColumn_apply (c : Dev nD) (r : Fin 262144) :
    (V m c main_v7 : S262144x1.Idx → Elt F .f32) (ix2 r 0) = margins (m ((c : Thread nD τ).loc main_arg3)) (ix1 r) := by
  rw [marginColumn_eq]
  refine shapeCast_apply _ shapeCasts_S262144_S262144x1 (ix2 r 0) (ix1 r) ?_
  rw [Shape.rowMajor_val_one, Shape.rowMajor_val_two]
  show r.val = r.val * 1 + 0
  omega

end Cert.KernelIdeal.Blocks

end
-- ==== Proof.KernelRunning.lean ====
/-
  The accumulator, point by point. What the output's one-element buffer holds after grid point `n` (the generated
  `outsAt0`, defined by recursion on the point over the three cases) is, at the extended reals:

    after point `n < 63`     the sum of the losses of rows `0 … 4096·(n+1) − 1`     (`running`, by induction on `n`);
    after point `63`         the sum of all 262144 losses, times the constant `2⁻¹⁸`   (`last`).

  Each step is one block: the case's value (KernelCases), the block step (KernelBlockSum: the accumulator plus the
  block's rows' losses), the block's rows as rows of the arrays (KernelBlocks: row `q` of block `t` is row `4096·t + q`),
  and the split of an initial segment's sum at a multiple of 4096 (TripletLoss.partialSum_block).
-/
import proofs.«139959_j55972013802306_1_alg».proof.Proof.KernelCases
import proofs.«139959_j55972013802306_1_alg».proof.Proof.KernelBlockSum
import proofs.«139959_j55972013802306_1_alg».proof.Proof.KernelBlocks
import proofs.«139959_j55972013802306_1_alg».proof.Proof.TripletLoss

noncomputable section

open Idealize.ShloMosaic Idealize.ShloMosaic.TcCoe Idealize.SL.Sem Idealize.ShloMosaic.ValueIdx

namespace Cert.KernelIdeal.Running

open Cert.KernelIdeal Cert.KernelIdeal.Gen Cert.TripletLoss Cert.KernelIdeal.Acc Cert.KernelIdeal.BlockSum Cert.KernelIdeal.Blocks

variable (m : (ℓ : Loc nD τ sig) → Buf (Elt Ideal) ℓ)

/-- The rows of the three arrays and the margin of each row, as the region finds them. -/
abbrev anchorRow (c : Dev nD) : Fin 262144 → Fin 128 → EReal := fun r k => V m c main_arg0 (ix2 r k)
abbrev positiveRow (c : Dev nD) : Fin 262144 → Fin 128 → EReal := fun r k => V m c main_arg1 (ix2 r k)
abbrev negativeRow (c : Dev nD) : Fin 262144 → Fin 128 → EReal := fun r k => V m c main_arg2 (ix2 r k)
abbrev marginOf (c : Dev nD) : Fin 262144 → EReal := fun r => V m c main_v7 (ix2 r 0)

/-- The loss of row `r`. -/
abbrev loss (c : Dev nD) : ℕ → EReal :=
  lossAt eps (anchorRow m c) (positiveRow m c) (negativeRow m c) (marginOf m c)

/-- The loss of row `q` of block `t`, computed from the windows' blocks, is the loss of row `4096·t + q`. -/
theorem blockRow_loss (c : Dev nD) (t : Fin cfg0.N) (q : Fin 4096) :
    rowLoss eps (fun k => (iblk m c 0 t : Vec Ideal S4096x128 .f32) (ix2 q k)) (fun k => (iblk m c 1 t : Vec Ideal S4096x128 .f32) (ix2 q k))
        (fun k => (iblk m c 2 t : Vec Ideal S4096x128 .f32) (ix2 q k)) ((iblk m c 3 t : Vec Ideal S4096x1 .f32) (ix2 q 0))
      = loss m c (4096 * t.val + q.val) := by
  have hN : t.val < 64 := lt_of_lt_of_eq t.isLt N_0
  have hr : 4096 * t.val + q.val < 262144 := by have := q.isLt; omega
  have e : loss m c (4096 * t.val + q.val)
      = rowLoss eps (anchorRow m c (rowAt t q)) (positiveRow m c (rowAt t q)) (negativeRow m c (rowAt t q)) (marginOf m c (rowAt t q)) := by
    unfold loss lossAt
    rw [rowOf_of_lt hr]
  rw [e]
  exact congr (congr (congr (congrArg (rowLoss eps) (funext fun k => anchors_apply m c t q k))
    (funext fun k => positives_apply m c t q k)) (funext fun k => negatives_apply m c t q k)) (marginBlock_apply m c t q)

/-- One grid point's step: the accumulator plus the losses of the block's 4096 rows. -/
theorem step (c : Dev nD) (t : Fin cfg0.N) (acc : Vec Ideal S1x1 .f32) :
    k0_pay3 (F := Ideal) (iblk m c 0 t) (iblk m c 1 t) (iblk m c 2 t) (iblk m c 3 t) acc o11
      = acc o11 + ∑ q : Fin 4096, loss m c (4096 * t.val + q.val) :=
  (pay3_apply (iblk m c 0 t) (iblk m c 1 t) (iblk m c 2 t) (iblk m c 3 t) acc).trans
    (congrArg (acc o11 + ·) (Finset.sum_congr rfl fun q _ => blockRow_loss m c t q))

/-- The sum of the first `t` blocks plus block `t` is the sum of the first `t + 1` blocks. -/
theorem add_block (f : ℕ → EReal) (t : ℕ) :
    partialSum f (4096 * t) + ∑ q : Fin 4096, f (4096 * t + q.val) = partialSum f (4096 * (t + 1)) := by
  rw [partialSum_block, show 4096 * t + 4096 = 4096 * (t + 1) by ring]

/-- After a point that is not the last, the accumulator holds the sum of the losses of every row up to the point's
    block's last. -/
theorem running (c : Dev nD) : ∀ (n : ℕ) (h : n < cfg0.N), n < 63 →
    outsAt0 m c n h o11 = partialSum (loss m c) (4096 * (n + 1))
  | 0, h, _ => by
    have hA : outsAt0 m c 0 h = _ := outsAt0_A m c ⟨0, h⟩ rfl (by dsimp only; omega)
    rw [hA, out_first, step m c ⟨0, h⟩ (k0_pay2 (F := Ideal)), pay2_apply]
    have b := add_block (loss m c) 0
    rw [show partialSum (loss m c) (4096 * 0) = 0 from partialSum_zero _] at b
    exact b
  | n + 1, h, hlt => by
    have h0 : ¬(⟨n + 1, h⟩ : Fin cfg0.N).val % 64 = 0 := by dsimp only; omega
    have h1 : ¬(⟨n + 1, h⟩ : Fin cfg0.N).val % 64 = 63 := by dsimp only; omega
    rw [outsAt0_B m c ⟨n + 1, h⟩ h0 h1, out_middle, step m c ⟨n + 1, h⟩]
    show outsAt0 m c n _ o11 + _ = _
    rw [running c n (Nat.lt_of_succ_lt h) (by omega)]
    exact add_block (loss m c) (n + 1)

/-- After the last point the accumulator holds the sum of all the losses, scaled. -/
theorem last (c : Dev nD) (h : 63 < cfg0.N) :
    outsAt0 m c 63 h o11 = partialSum (loss m c) 262144 * Ideal.ofBits .f32 0x36800000#32 := by
  have h0 : ¬(⟨63, h⟩ : Fin cfg0.N).val % 64 = 0 := by dsimp only; omega
  have h1 : (⟨63, h⟩ : Fin cfg0.N).val % 64 = 63 := rfl
  rw [outsAt0_C m c ⟨63, h⟩ h0 h1, out_last, pay1_apply, step m c ⟨63, h⟩]
  show (outsAt0 m c 62 _ o11 + _) * _ = _
  rw [running m c 62 (Nat.lt_of_succ_lt h) (by decide)]
  exact congrArg (· * Ideal.ofBits .f32 0x36800000#32) (add_block (loss m c) 63)

end Cert.KernelIdeal.Running

end
-- ==== Proof.TripletMean.lean ====
/-
  The value both programs end with, as one function of the four arrays they read: the sum over the 262144 rows of the
  row's loss (TripletLoss.rowLoss, with the `ε` of pattern `0x358637BD`), divided by `262144` — a scalar, so a function on
  the one index of the empty shape.
-/
import proofs.«139959_j55972013802306_1_alg».proof.Proof.TripletLoss
import Idealize.ShloMosaic.Lib.ValueIdx

noncomputable section

open Idealize.ShloMosaic Idealize.ShloMosaic.ValueIdx

namespace Cert.TripletLoss

/-- The `ε` added to every difference, as its pattern reads. -/
abbrev eps : EReal := Ideal.ofBits .f32 0x358637BD#32

/-- The sum of the rows' losses. -/
def totalLoss (a p n : (⟨2, ![262144, 128]⟩ : Shape).Idx → EReal) (mg : (⟨1, ![262144]⟩ : Shape).Idx → EReal) : EReal :=
  ∑ r : Fin 262144, rowLoss eps (fun k => a (ix2 r k)) (fun k => p (ix2 r k)) (fun k => n (ix2 r k)) (mg (ix1 r))

/-- The mean loss, as a scalar array. -/
def meanOf (a p n : (⟨2, ![262144, 128]⟩ : Shape).Idx → EReal) (mg : (⟨1, ![262144]⟩ : Shape).Idx → EReal) :
    (⟨0, ![]⟩ : Shape).Idx → EReal :=
  fun _ => Ideal.div (totalLoss a p n mg) (Ideal.ofBits .f32 0x48800000#32)

/-- The sum of the first 262144 losses indexed by `ℕ` is the sum over the rows. -/
theorem partialSum_lossAt (A P N : Fin 262144 → Fin 128 → EReal) (M : Fin 262144 → EReal) :
    partialSum (lossAt eps A P N M) 262144 = ∑ r : Fin 262144, rowLoss eps (A r) (P r) (N r) (M r) := by
  rw [partialSum_all]
  refine Finset.sum_congr rfl fun r _ => ?_
  unfold lossAt
  rw [rowOf_val]

end Cert.TripletLoss

end
-- ==== Proof.KernelResult.lean ====
/-
  The kernel's result. The output window has one block, the whole [1, 1] array, written back once, after the last grid
  point; so the array ends holding what the body left in the buffer after point 63 (`finalArray_eq`), whose one entry is
  the sum of all the losses scaled by `2⁻¹⁸` (Running.last). The one host operation after the region reshapes [1, 1] to a
  scalar, which reads that entry. Scaling by `2⁻¹⁸` is dividing by `262144`, the rows the windows read are the argument
  arrays' (no host operation before the region writes them) and the margin column's entries are the gathered margins: the
  result is `TripletLoss.meanOf` of the three argument arrays and the gathered margins (`run`).
-/
import proofs.«139959_j55972013802306_1_alg».proof.Proof.KernelRunning
import proofs.«139959_j55972013802306_1_alg».proof.Proof.TripletMean
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Running

variable (m : (ℓ : Loc nD τ sig) → Buf (Elt Ideal) ℓ) (ρ : Dev nD → PrngReg)

theorem lastLt : 63 < cfg0.N := by rw [show cfg0.N = 64 from N_0]; decide

/-- The last grid point. -/
abbrev tLast : Fin cfg0.N := ⟨63, lastLt⟩

/-- What the body leaves in the output's buffer after the last point, as contents of the result array (its one block is
    the array). -/
abbrev finalArray (c : Dev nD) : Buf (Elt Ideal) ((c : Thread nD τ).loc main_v8) := outsAt0 m c 63 lastLt

/-- The one write-back, after the last point, writes it. -/
theorem flushed_eq (c : Dev nD) (t : Fin cfg0.N) (hf : (cfg0.win 4).flush t = true) :
    (dats m 0 c).flushed 4 t = ((cfg0.win 4).blk t).view.read (Elt Ideal) (finalArray m c) := by
  have hN : t.val < 64 := lt_of_lt_of_eq t.isLt N_0
  have h63 : t.val = 63 := by have := (flush0_4 t).mp hf; omega
  obtain rfl : t = tLast := Fin.ext h63
  show (cfg0.win 4).cut (grid0.coords tLast) ((dats m 0 c).after 4 tLast) = _
  rw [after0_4]
  have hz' : (fun a => win0_4.index tLast a * main_v8.ty.shape.size a) = fun _ => 0 := funext fun a => by fin_cases a <;> rfl
  exact (Memref.read_access_unit_zero (Elt Ideal) main_v8 hz' (fun a => by rw [congrFun hz' a]; simp) (finalArray m c)).symm

/-- So the result array of the region ends holding it: the last point's block covers the [1, 1] array. -/
theorem finalArray_eq (c : Dev nD) : (dats m 0 c).arrAt 4 cfg0.N = finalArray m c :=
  (dats m 0 c).arrAt_eq_of_cover 4 (finalArray m c) (flushed_eq m c) fun i =>
    ⟨tLast, (flush0_4 tLast).mpr rfl, by
      show i ∈ ((View.whole main_v8).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from rfl, show win0_4.xsize (grid0.coords tLast) 0 = 1 from by decide +kernel]
        omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from rfl, show win0_4.xsize (grid0.coords tLast) 1 = 1 from by decide +kernel]
        omega⟩

/-- The scalar result is the reshape of the region's result array. -/
theorem tail_eq (c : Dev nD) :
    Pipeline.afterTail₀ cfgs (dats m) 0 (V0 m) [hostOps1] c main_v9 = shapeCast S_ (finalArray m c) shapeCasts_S1x1_S_ := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v8)
      = finalArray m c :=
    (Pipeline.withArrays_arr spec0 launch0.win.arr_inj c _ _ 4).trans (finalArray_eq m c)
  rw [e]
  rfl

/-- THE KERNEL'S VALUE: the scalar result is the mean loss of the three argument arrays and the gathered margins. -/
theorem result_eq (c : Dev nD) :
    shapeCast S_ (finalArray m c) shapeCasts_S1x1_S_
      = TripletLoss.meanOf (m ((c : Thread nD τ).loc main_arg0)) (m ((c : Thread nD τ).loc main_arg1))
          (m ((c : Thread nD τ).loc main_arg2)) (Blocks.margins (m ((c : Thread nD τ).loc main_arg3))) := by
  funext j
  obtain rfl : j = ix0 := eq_ix0 j
  refine (shapeCast_apply _ shapeCasts_S1x1_S_ ix0 BlockSum.o11 ?_).trans ?_
  · have h0 : (S1x1.rowMajor BlockSum.o11).val = 0 := by rw [Shape.rowMajor_val_two]; rfl
    have h1 : (S_.rowMajor ix0).val < 1 := (S_.rowMajor ix0).isLt
    omega
  · show outsAt0 m c 63 lastLt BlockSum.o11 = _
    rw [last m c lastLt, TripletLoss.scaled_eq_mean, TripletLoss.partialSum_lossAt]
    unfold TripletLoss.meanOf TripletLoss.totalLoss
    refine congrArg (Ideal.div · (Ideal.ofBits .f32 0x48800000#32)) (Finset.sum_congr rfl fun r _ => ?_)
    show TripletLoss.rowLoss TripletLoss.eps (fun k => V m c main_arg0 (ix2 r k)) (fun k => V m c main_arg1 (ix2 r k))
      (fun k => V m c main_arg2 (ix2 r k)) (V m c main_v7 (ix2 r 0)) = _
    rw [V_main_arg0, V_main_arg1, V_main_arg2, Blocks.marginColumn_apply]

/-- THE KERNEL'S RUN, READ: every weakly fair execution of the idealized kernel's @main terminates with the scalar result at
    the mean loss of the arguments and the arguments unchanged. -/
theorem run : θ_run defs (onTc (τ := τ) (main (F := Ideal))) ⟨m, fun _ => 0, ρ⟩ fun r => ∀ c : Dev nD,
      r.2.mem ((c.tc : Thread nD τ).loc main_v9)
        = TripletLoss.meanOf (m ((c.tc : Thread nD τ).loc main_arg0)) (m ((c.tc : Thread nD τ).loc main_arg1))
            (m ((c.tc : Thread nD τ).loc main_arg2)) (Blocks.margins (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.ReferenceRun.lean ====
/-
  The reference as a list of its 35 host operations, and its run read back: every weakly fair execution of the
  reference's @main terminates, the result buffer holding the operations' composed term of the four argument arrays and the
  arguments unchanged. The composed term is named in stages, at any float instance:

    rowDist x y        the vector of `√ Σₖ (x − y + ε)²` over the rows (subtract, add the splat `ε`, square, sum along
                       axis 1 from `0`, square root);
    margins cs         the margin table `[0.1, 0.085, 0.07, 0.04]` gathered at the class indices, a negative index first
                       moved up by the table's length 4 (the way an array index wraps);
    meanLoss a p n cs  the sum over the rows of `max (rowDist a p − rowDist a n + margins cs) 0`, from `0`, divided by
                       `262144`.
-/
import proofs.«139959_j55972013802306_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- A [262144, 128] array of floats, a vector of 262144 floats, a vector of 262144 class indices, a scalar. -/
abbrev Mat (F : FTy → Type) := (⟨S262144x128, .f32⟩ : BufTy).Contents (Elt F)
abbrev Col (F : FTy → Type) := (⟨S262144, .f32⟩ : BufTy).Contents (Elt F)
abbrev Cls (F : FTy → Type) := (⟨S262144, .i32⟩ : BufTy).Contents (Elt F)
abbrev Sca (F : FTy → Type) := (⟨S_, .f32⟩ : BufTy).Contents (Elt F)

/-- @main's 35 operations, in order. -/
abbrev ops : List (HloOp τ sig (Elt F)) :=
  [ nullary main_cst (fun i => FloatOps.ofBits .f32 (lit0 (S4.rowMajor i))),
    binary main_arg0 main_arg1 main_v0 (subf : Mat F → Mat F → Mat F),
    nullary main_cst_0 (constant S_ .f32 0x358637BD#32),
    unary main_cst_0 main_v1 (broadcastInDim S262144x128 ![] bcast_S_S262144x128 : Sca F → Mat F),
    binary main_v0 main_v1 main_v2 (addf : Mat F → Mat F → Mat F),
    binary main_v2 main_v2 main_v3 (mulf : Mat F → Mat F → Mat F),
    nullary main_cst_1 (constant S_ .f32 0x00000000#32),
    binary main_v3 main_cst_1 main_v4 ((fun x v => Host.reduceAdd x v reducesTo_S262144x128_S262144_d1 h_S_) : Mat F → Sca F → Col F),
    unary main_v4 main_v5 (Host.sqrt : Col F → Col F),
    binary main_arg0 main_arg2 main_v6 (subf : Mat F → Mat F → Mat F),
    nullary main_cst_2 (constant S_ .f32 0x358637BD#32),
    unary main_cst_2 main_v7 (broadcastInDim S262144x128 ![] bcast_S_S262144x128 : Sca F → Mat F),
    binary main_v6 main_v7 main_v8 (addf : Mat F → Mat F → Mat F),
    binary main_v8 main_v8 main_v9 (mulf : Mat F → Mat F → Mat F),
    nullary main_cst_3 (constant S_ .f32 0x00000000#32),
    binary main_v9 main_cst_3 main_v10 ((fun x v => Host.reduceAdd x v reducesTo_S262144x128_S262144_d1 h_S_) : Mat F → Sca F → Col F),
    unary main_v10 main_v11 (Host.sqrt : Col F → Col F),
    nullary main_c (constantI S_ 32 0#32),
    unary main_c main_v12 (broadcastInDim S262144 ![] bcast_S_S262144 : (⟨S_, .i32⟩ : BufTy).Contents (Elt F) → Cls F),
    binary main_arg3 main_v12 main_v13 (cmpi .slt : Cls F → Cls F → (⟨S262144, .i1⟩ : BufTy).Contents (Elt F)),
    nullary main_c_4 (constantI S_ 32 4#32),
    unary main_c_4 main_v14 (broadcastInDim S262144 ![] bcast_S_S262144 : (⟨S_, .i32⟩ : BufTy).Contents (Elt F) → Cls F),
    binary main_arg3 main_v14 main_v15 (addi : Cls F → Cls F → Cls F),
    ternary main_v13 main_v15 main_arg3 main_v16 (select : (⟨S262144, .i1⟩ : BufTy).Contents (Elt F) → Cls F → Cls F → Cls F),
    unary main_v16 main_v17 (broadcastInDim S262144x1 ![0] bcast_S262144_S262144x1_0 : Cls F → (⟨S262144x1, .i32⟩ : BufTy).Contents (Elt F)),
    binary main_cst main_v17 main_v18 ((fun x i => Host.gather gather_S4_S262144x1_S262144_n_0_n_n_0_1_1 x i) : (⟨S4, .f32⟩ : BufTy).Contents (Elt F) → (⟨S262144x1, .i32⟩ : BufTy).Contents (Elt F) → Col F),
    binary main_v5 main_v11 main_v19 (subf : Col F → Col F → Col F),
    binary main_v19 main_v18 main_v20 (addf : Col F → Col F → Col F),
    nullary main_cst_5 (constant S_ .f32 0x00000000#32),
    unary main_cst_5 main_v21 (broadcastInDim S262144 ![] bcast_S_S262144 : Sca F → Col F),
    binary main_v20 main_v21 main_v22 (maximumf : Col F → Col F → Col F),
    nullary main_cst_6 (constant S_ .f32 0x00000000#32),
    binary main_v22 main_cst_6 main_v23 ((fun x v => Host.reduceAdd x v reducesTo_S262144_S_d0 h_S_) : Col F → Sca F → Sca F),
    nullary main_cst_7 (constant S_ .f32 0x48800000#32),
    binary main_v23 main_cst_7 main_v24 (Host.divf : Sca F → Sca F → Sca F) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    nullary_bufs_sub .., binary_bufs_sub .., unary_bufs_sub .., binary_bufs_sub .., nullary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., binary_bufs_sub .., nullary_bufs_sub .., binary_bufs_sub ..⟩

/-- The rows' distances: `√ Σₖ (x − y + ε)²`, the sum taken along axis 1 from `0`. -/
abbrev rowDist (x y : Mat F) : Col F :=
  Host.sqrt (Host.reduceAdd
    (mulf (addf (subf x y) (broadcastInDim S262144x128 ![] bcast_S_S262144x128 (constant S_ .f32 0x358637BD#32)))
      (addf (subf x y) (broadcastInDim S262144x128 ![] bcast_S_S262144x128 (constant S_ .f32 0x358637BD#32))))
    (constant S_ .f32 0x00000000#32) reducesTo_S262144x128_S262144_d1 h_S_)

/-- The margin table gathered at the class indices (a negative index moved up by 4 first). -/
abbrev margins (cs : Cls F) : Col F :=
  Host.gather gather_S4_S262144x1_S262144_n_0_n_n_0_1_1 (fun i => FloatOps.ofBits .f32 (lit0 (S4.rowMajor i)))
    (broadcastInDim S262144x1 ![0] bcast_S262144_S262144x1_0
      (select (cmpi .slt cs (broadcastInDim S262144 ![] bcast_S_S262144 (constantI S_ 32 0#32)))
        (addi cs (broadcastInDim S262144 ![] bcast_S_S262144 (constantI S_ 32 4#32))) cs))

/-- The rows' losses: the positive part of `d(a, p) − d(a, n) + margin`. -/
abbrev losses (a p n : Mat F) (cs : Cls F) : Col F :=
  maximumf (addf (subf (rowDist a p) (rowDist a n)) (margins cs))
    (broadcastInDim S262144 ![] bcast_S_S262144 (constant S_ .f32 0x00000000#32))

/-- The mean loss as the reference takes it: the sum of the losses from `0`, divided by `262144`. -/
abbrev meanLoss (a p n : Mat F) (cs : Cls F) : Sca F :=
  Host.divf (Host.reduceAdd (losses a p n cs) (constant S_ .f32 0x00000000#32) reducesTo_S262144_S_d0 h_S_)
    (constant S_ .f32 0x48800000#32)

/-- On every device, for any float values, from any memory with zero counters: every weakly fair execution of @main
    terminates with the result at `meanLoss` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = meanLoss (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.HostRun

end
-- ==== Proof.ReferenceValue.lean ====
/-
  The reference's result, read at the extended reals: the composed term of its run (`HostRun.meanLoss`) at its one index
  is the sum over all 262144 rows of `TripletLoss.rowLoss` — the rows of the three arrays and the gathered margin — divided
  by the real `262144`. A host sum along one axis from `0` is `0 + Σ` over that axis's coordinates, the host's square root
  and quotient are the extended reals' own, a splat constant reads its value at every index.
-/
import proofs.«139959_j55972013802306_1_alg».proof.Proof.ReferenceRun
import proofs.«139959_j55972013802306_1_alg».proof.Proof.TripletLoss
import proofs.«139959_j55972013802306_1_alg».proof.Proof.TripletMean
import Idealize.ShloMosaic.Lib.ValueIdx
import Idealize.ShloMosaic.PureOps.Ideal.Laws

noncomputable section

open Idealize.ShloMosaic Idealize.ShloMosaic.ValueIdx

namespace Cert.ReferenceIdeal.HostValue

open Cert.ReferenceIdeal Cert.ReferenceIdeal.Gen Cert.ReferenceIdeal.HostRun Cert.TripletLoss

/-- A host sum along the 128 columns, at row `r`: the initial value plus `Σₖ` of the row. -/
theorem sumCols_apply (v : FVec Ideal S262144x128 .f32) (h' : S262144x128.ReducesTo [1] S262144) (init : EReal) (r : Fin 262144) :
    Ideal.hostReduceAdd h' v init (ix1 r) = init + ∑ k : Fin 128, v (ix2 r k) :=
  (Ideal.hostReduceAdd_single h' (by decide) v init (ix1 r)).trans
    (congrArg (init + ·) (Finset.sum_congr rfl fun k _ =>
      congrArg v (funext fun a => Fin.ext (by match a with | ⟨0, _⟩ => rfl | ⟨1, _⟩ => rfl))))

/-- A vector's index set is its one coordinate's range. -/
def idxEquiv1 : S262144.Idx ≃ Fin 262144 where
  toFun i := i 0
  invFun r := ix1 r
  left_inv i := (eq_ix1 i).symm
  right_inv _ := rfl

/-- A host sum of a whole vector: the initial value plus `Σᵣ` of its entries. -/
theorem sumAll_apply (v : FVec Ideal S262144 .f32) (h' : S262144.ReducesTo [0] S_) (init : EReal) :
    Ideal.hostReduceAdd h' v init ix0 = init + ∑ r : Fin 262144, v (ix1 r) :=
  (Ideal.hostReduceAdd_total h' (fun b => b.elim0) v init ix0).trans
    (congrArg (init + ·) (Equiv.sum_comp idxEquiv1.symm v).symm)

/-- The distance vector at row `r` is the distance of the two rows. -/
theorem rowDist_apply (x y : Mat Ideal) (r : Fin 262144) :
    rowDist (F := Ideal) x y (ix1 r) = pairDist eps (fun k => x (ix2 r k)) (fun k => y (ix2 r k)) := by
  unfold rowDist pairDist Host.sqrt Host.reduceAdd
  rw [Ideal.hostUnary_sqrt_def, Ideal.hostReduceAdd_def]
  refine congrArg Ideal.sqrt ?_
  refine (sumCols_apply _ _ _ r).trans ?_
  rw [ValueIdx.constant_apply, Ideal.ofBits_zero_f32, zero_add]
  rfl

/-- The loss vector at row `r` is the row's loss, with the gathered margin. -/
theorem losses_apply (a p n : Mat Ideal) (cs : Cls Ideal) (r : Fin 262144) :
    losses (F := Ideal) a p n cs (ix1 r)
      = rowLoss eps (fun k => a (ix2 r k)) (fun k => p (ix2 r k)) (fun k => n (ix2 r k)) (margins cs (ix1 r)) := by
  unfold rowLoss
  show max ((rowDist a p (ix1 r) - rowDist a n (ix1 r)) + margins cs (ix1 r)) (Ideal.ofBits .f32 0x00000000#32) = _
  rw [rowDist_apply, rowDist_apply, Ideal.ofBits_zero_f32]

/-- THE REFERENCE'S VALUE: the sum of the rows' losses, divided by `262144`. -/
theorem meanLoss_apply (a p n : Mat Ideal) (cs : Cls Ideal) :
    meanLoss (F := Ideal) a p n cs ix0
      = Ideal.div (∑ r : Fin 262144, rowLoss eps (fun k => a (ix2 r k)) (fun k => p (ix2 r k)) (fun k => n (ix2 r k)) (margins cs (ix1 r)))
          (Ideal.ofBits .f32 0x48800000#32) := by
  show Ideal.div (Ideal.hostReduceAdd reducesTo_S262144_S_d0 (losses a p n cs) (Ideal.ofBits .f32 0x00000000#32) ix0)
      (Ideal.ofBits .f32 0x48800000#32) = _
  refine congrArg (Ideal.div · (Ideal.ofBits .f32 0x48800000#32)) ?_
  refine (sumAll_apply _ _ _).trans ?_
  rw [Ideal.ofBits_zero_f32, zero_add]
  exact Finset.sum_congr rfl fun r _ => losses_apply a p n cs r

/-- As a scalar array, the reference's result is `TripletLoss.meanOf` of the arguments and the gathered margins. -/
theorem meanLoss_eq (a p n : Mat Ideal) (cs : Cls Ideal) :
    meanLoss (F := Ideal) a p n cs = meanOf a p n (margins cs) := by
  funext j
  obtain rfl : j = ix0 := eq_ix0 j
  exact meanLoss_apply a p n cs

end Cert.ReferenceIdeal.HostValue

end
-- ==== Proof.lean ====
/-
  The certificate of a triplet margin loss kernel against its jnp reference: `Cert.Claim`, its five conjuncts.

  THE MATHEMATICS. Given 262144 samples — an anchor, a positive and a negative row of 128 floats each, and a class index
  selecting a margin from the table [0.1, 0.085, 0.07, 0.04] — the loss of a sample is the positive part of
  `d(a, p) − d(a, n) + margin` with `d(x, y) = √ Σₖ (xₖ − yₖ + ε)²`, and the result is the mean of the losses.
    The reference computes all distances at once, gathers the margins, takes the positive parts, sums the 262144 losses
  from `0` and divides by `262144`.
    The kernel gathers the margins the same way (the same host operations on the same table), then walks a grid of 64 points:
  at point `t` it holds rows `4096·t … 4096·t + 4095` of the three arrays and of the margin column, computes those rows'
  losses and adds their sum to a one-element accumulator — reset to `0` at the first point — and at the last point scales the
  accumulator by the constant `2⁻¹⁸`; the accumulator is written back once, after the last point, and reshaped to a scalar.
    Over the extended reals the two agree with no assumption on the inputs: the per-row expressions are the same terms
  (the same `ε` pattern, the lane sum and the host's row sum both `Σₖ`, both square roots the extended reals'), a sum of
  262144 terms taken 4096 at a time is the sum (addition of extended reals is commutative and associative everywhere), and
  scaling by `2⁻¹⁸ = 1 / 262144` exactly is dividing by `262144` at every extended real. The precondition (finite inputs) is
  not used.

  THE CONJUNCTS. The two kernel frames are the generated frame certificates. The reference's frame and value come from its
  run, written out as its 35 host operations (ReferenceRun, ReferenceValue). The ideal pass rewrote nothing, so `preserves` is
  `True`. The kernel's value is read off the generated frame run: the three cases' values (KernelCases), one block's
  arithmetic (KernelBlockSum), the windows' blocks as rows of the arrays (KernelBlocks), the induction over the grid
  points (KernelRunning), the final array and the reshape after the region (KernelResult). Both results are
  `TripletLoss.meanOf` of the arguments and the gathered margins (TripletLoss, TripletMean), and the two programs' margin terms
  are one term.
-/
import proofs.«139959_j55972013802306_1_alg».proof.Defs
import proofs.«139959_j55972013802306_1_alg».proof.Proof.Gen.Kernel
import proofs.«139959_j55972013802306_1_alg».proof.Proof.Gen.Kernel.Skeleton
import proofs.«139959_j55972013802306_1_alg».proof.Proof.Gen.Kernel.Launch
import proofs.«139959_j55972013802306_1_alg».proof.Proof.Gen.Kernel.Points
import proofs.«139959_j55972013802306_1_alg».proof.Proof.Gen.Kernel.Frame
import proofs.«139959_j55972013802306_1_alg».proof.Proof.Gen.KernelIdeal
import proofs.«139959_j55972013802306_1_alg».proof.Proof.Gen.KernelIdeal.Skeleton
import proofs.«139959_j55972013802306_1_alg».proof.Proof.Gen.KernelIdeal.Launch
import proofs.«139959_j55972013802306_1_alg».proof.Proof.Gen.KernelIdeal.Points
import proofs.«139959_j55972013802306_1_alg».proof.Proof.Gen.KernelIdeal.Frame
import proofs.«139959_j55972013802306_1_alg».proof.Proof.Gen.ReferenceIdeal
import proofs.«139959_j55972013802306_1_alg».proof.Proof.Gen.Pre_finite_inputs
import proofs.«139959_j55972013802306_1_alg».proof.Proof.KernelResult
import proofs.«139959_j55972013802306_1_alg».proof.Proof.ReferenceValue
import Idealize.ShloMosaic.Adequacy
import Idealize.ShloMosaic.Init

noncomputable section

namespace Cert.Proof

open Idealize.ShloMosaic Idealize.SL.Sem

/-- The margins as the kernel's program gathers them and as the reference does are the same term: the same table, the
    same index arithmetic, the same gather. -/
theorem margins_eq (cs : Cert.ReferenceIdeal.HostRun.Cls Ideal) :
    Cert.ReferenceIdeal.HostRun.margins (F := Ideal) cs = Cert.KernelIdeal.Blocks.margins (F := Ideal) cs := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Both idealized programs end with the mean loss of arguments that agree. -/
theorem algebraic : Cert.algebraic_KernelIdeal_ReferenceIdeal := by
  intro m ρ m' ρ' _ hagree
  refine ⟨fun c => Cert.TripletLoss.meanOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Blocks.margins (m ((c.tc : Thread Cert.KernelIdeal.nD Cert.KernelIdeal.τ).loc Cert.KernelIdeal.main_arg3))),
    Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2, Cert.ReferenceIdeal.HostValue.meanLoss_eq]
  exact congrArg (Cert.TripletLoss.meanOf _ _ _) (margins_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
